-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096 : Shape := ⟨1, ![4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x4096 .f32) (main_arg1 : FVec F S4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S32768x4096 : Shape := ⟨2, ![32768, 4096]⟩
abbrev S4096 : Shape := ⟨1, ![4096]⟩
abbrev S1x4096 : Shape := ⟨2, ![1, 4096]⟩
abbrev S640x4096 : Shape := ⟨2, ![640, 4096]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .f32⟩
  | .local _ .vmem, ⟨0, _⟩ => ⟨S640x4096, .f32⟩
  | .local _ .vmem, ⟨1, _⟩ => ⟨S640x4096, .f32⟩
  | .local _ .vmem, ⟨2, _⟩ => ⟨S1x4096, .f32⟩
  | .local _ .vmem, ⟨3, _⟩ => ⟨S640x4096, .f32⟩
  | .local _ .vmem, ⟨4, _⟩ => ⟨S640x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S640x4096_S640x4096_0_0 : ∀ a, (![0, 0] : Fin 2 → Nat) a + S640x4096.size a ≤ S640x4096.size a
  h_S640x4096 : 0 < S640x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S640x4096 : S1x4096.Broadcasts S640x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S640x4096.size a < S32768x4096.size a
  hwx0_0 : ∀ i : grid0.Coords, EltTy.bits .f32 = 32 ∨ (Rect.unit (s := S32768x4096) (fun a => cc0_transform_0 i a * S640x4096.size a) (fun a => (Pipeline.Clip.of (cc0_transform_0 i a) (S640x4096.size a) (S32768x4096.size a)).extent (S640x4096.size a)) fun a => Pipeline.Clip.inb (Pipeline.Clip.ok_of (hstart0_0 i a))).WholeWords (EltTy.packing .f32)
  hwxs0_0 : ∀ i : grid0.Coords, EltTy.bits .f32 = 32 ∨ (Rect.unit (s := S640x4096) (fun _ => 0) (fun a => (Pipeline.Clip.of (cc0_transform_0 i a) (S640x4096.size a) (S32768x4096.size a)).extent (S640x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S640x4096.size a < S32768x4096.size a
  hwx0_2 : ∀ i : grid0.Coords, EltTy.bits .f32 = 32 ∨ (Rect.unit (s := S32768x4096) (fun a => cc0_transform_2 i a * S640x4096.size a) (fun a => (Pipeline.Clip.of (cc0_transform_2 i a) (S640x4096.size a) (S32768x4096.size a)).extent (S640x4096.size a)) fun a => Pipeline.Clip.inb (Pipeline.Clip.ok_of (hstart0_2 i a))).WholeWords (EltTy.packing .f32)
  hwxs0_2 : ∀ i : grid0.Coords, EltTy.bits .f32 = 32 ∨ (Rect.unit (s := S640x4096) (fun _ => 0) (fun a => (Pipeline.Clip.of (cc0_transform_2 i a) (S640x4096.size a) (S32768x4096.size a)).extent (S640x4096.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S640x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S640x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .f32⟩
  | .hbm, ⟨4, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)

variable [Facts₀]

class Facts : Prop extends Facts₀ where

variable [Facts]
-- ==== Proof.IdealTile.lean ====
/-
  One grid step of the row-scaling kernel, at any float instance.

  The step's body sees three staging buffers: a tile of `x` (640 rows of 4096 lanes), the one row of scale
  factors (1 x 4096), and the result's tile. It loads the first two whole, lays the row of factors over every
  row of the tile, multiplies lane by lane, and stores the product over the whole result tile (it also loads the
  result tile first; that value is never used). So after the step the result tile holds, at row p and lane q,
  (x tile)(p,q) times (factor row)(0,q) -- whatever the two input tiles held, INCLUDING the rows of a last, partial tile
  that lie past the end of the array and hold words nobody names. The two input tiles are left as they were.

  `tile_apply` states the product index by index; `step` is the separation-logic triple of the body.
-/
import proofs.«409628_j80960133529733_3_alg».proof.Proof.Gen.KernelIdeal.Frame
import proofs.«409628_j80960133529733_3_alg».proof.Proof.Gen.KernelIdeal.Skeleton
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row of scale factors laid over every row of a tile: entry (p, q) is the row's entry (0, q). -/
def spread (v1 : Vec F S1x4096 .f32) : FVec F S640x4096 .f32 :=
  broadcastTo S640x4096 (shapeCast S1x4096 v1 shapeCasts_S1x4096_S1x4096) broadcasts_S1x4096_S640x4096

/-- What the step stores, at an index: the tile's entry times the spread row's entry. In particular the stored value at
    an index depends on the `x` tile only through its entry AT THAT index. -/
theorem tile_apply (v0 : Vec F S640x4096 .f32) (v1 : Vec F S1x4096 .f32) (j : S640x4096.Idx) :
    k0_pay1 v0 v1 j = FloatOps.mulf (v0 j) (spread v1 j) := rfl

/-- Two `x` tiles that agree at an index give the same stored value there. -/
theorem tile_congr (v0 v0' : Vec F S640x4096 .f32) (v1 : Vec F S1x4096 .f32) (j : S640x4096.Idx) (h : v0 j = v0' j) :
    k0_pay1 v0 v1 j = k0_pay1 v0' v1 j := by
  rw [tile_apply, tile_apply, h]

set_option maxHeartbeats 1000000 in
/-- The body on three whole staging memrefs, the `x` tile at `x0`, the factor row at `x1`, the result tile at anything:
    it runs to its end and leaves the result tile at the lane-wise product, the other two as they were. -/
theorem step (c : Dev nD) (E : Set ℕ) (i : grid0.Coords)
    (arg1 : Memref sig .tc .vmem S640x4096 .f32) (harg1 : arg1.IsWhole)
    (arg2 : Memref sig .tc .vmem S1x4096 .f32) (harg2 : arg2.IsWhole)
    (arg3 : Memref sig .tc .vmem S640x4096 .f32) (harg3 : arg3.IsWhole)
    (x0 : Vec F S640x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__diag_mul_kernel i arg1 harg1 arg2 harg2 arg3 harg3) K := by
  have hz : (![0, 0] : Fin 2 → Nat) = fun _ => 0 := funext fun a => by fin_cases a <;> rfl
  simp only [cc0__diag_mul_kernel_eq_skeleton]; unfold cc0__diag_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store is through the whole tile at offsets zero, so it covers every index; the two loads likewise read
  -- their buffers whole
  rw [View.read_writes_eq_canon _ _ _ (fun y => ⟨_, List.mem_singleton_self _, View.mem_set_unit_zero hz inb_S640x4096_S640x4096_0_0 y⟩),
    View.canon_unit_zero hz]
  simp only [View.readAt_eq_ld, View.ld_unit_zero (S := S640x4096) hz, View.ld_unit_zero (S := S1x4096) hz]

end Cert.KernelIdeal.Tile

end
-- ==== Proof.IdealFrame.lean ====
/-
  The row-scaling program runs to its end and leaves its arguments alone, at any float instance; and what its result
  array holds afterwards is computed by the pipeline library from what each grid step leaves in the result's staging tile.

  The grid has 52 steps over row tiles of 640 rows; 32768 = 51 * 640 + 128, so the LAST tile overhangs the array by 512
  rows. The fetch of `x` at a step lands the tile's rows inside the array (`xin`: all 640, or the first 128 at the last
  step) and leaves the other rows of the staging tile at words nobody names; the write-back of the result writes the same
  leading rows and nothing past the array's end. So the proof data names each staging tile only on those leading rows:

    * `x`'s tile after a step: the rows inside the array, filled out below with a word of the proof's choosing (`xtile`);
    * the factor row's tile: the whole 1 x 4096 row, fetched once and never moved;
    * the result's tile: the lane-wise product of the two (`Tile.tile_apply`), which ON THE LEADING ROWS does not depend
      on what filled `x`'s tile out (`Tile.tile_congr`) -- that is all the pipeline asks of a window whose last block
      is cut at the array's end.

  `run_main` is the run with every array named; `frame` reads it at the two arguments.
-/
import proofs.«409628_j80960133529733_3_alg».proof.Proof.IdealTile

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging tiles hold -/

/-- The rows of `x`'s tile at step `t` that lie inside the array, read off the array as the region finds it. -/
def xin (c : Dev nD) (t : Fin cfg0.N) : (win0_0.xblock (grid0.coords t)).Idx → Elt F .f32 := iblk m c 0 t

/-- `x`'s whole staging tile after step `t`: those rows, and the zero word on the rows past the array's end (which
    nothing reads back: the write-back is cut at the same row). -/
def xtile (c : Dev nD) (t : Fin cfg0.N) : S640x4096.Idx → Elt F .f32 :=
  win0_0.fill (grid0.coords t) (fun _ => Scalar.ofBits .f32 0#32) (xin m c t)

theorem cut_xtile (c : Dev nD) (t : Fin cfg0.N) : win0_0.cut (grid0.coords t) (xtile m c t) = xin m c t :=
  win0_0.cut_fill _ _ _

/-- A tile filled out two ways agrees on the rows the transfer moves. -/
theorem fill_agree {α : Type} (i : grid0.Coords) (d d' : win0_0.block.Idx → α) (g : (win0_0.xblock i).Idx → α)
    (j : win0_0.block.Idx) (h : win0_0.moved i j = true) : win0_0.fill i d g j = win0_0.fill i d' g j := by
  unfold Window.fill; rw [dif_pos h, dif_pos h]

/-- The proof data of the one pipeline on core `c`: the arrays as the region finds them; after step `t` the three staging
    tiles as described in the header; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => k0_pay1 (xtile m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xtile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (xtile m c t) (iblk m c 1 t) := by
  dsimp only [dats]

/-! ## What the body finds -/

/-- `x`'s tile is fetched at every step: the rows inside the array, and `d` (anything) below them. -/
theorem before_0 (c : Dev nD) (t : Fin cfg0.N) (d) :
    (dats m 0 c).before 0 t d = win0_0.fill (grid0.coords t) d (xin m c t) := by
  rw [Dat.before_fetched _ 0 t (fetch0_0 t)]
  unfold Dat.fetched Dat.blockOf xin iblk
  rw [A_eq]

/-- The factor row is fetched once and stays: its whole block at every step. -/
theorem before_1 (c : Dev nD) (t : Fin cfg0.N) (d) : (dats m 0 c).before 1 t d = iblk m c 1 t :=
  before0_1_of m (dats m 0 c) (A_eq m c 1) (after_1 m c) t d

/-- The result's tile is written back at every step, so the body finds it at anything. -/
theorem before_2 (c : Dev nD) (t : Fin cfg0.N) (d) : (dats m 0 c).before 2 t d = d :=
  Dat.before_out_reset _ 2 rfl t (by
    by_cases h0 : t.val = 0
    · exact .inl h0
    · exact .inr ⟨h0, flush0_2 _⟩) d

/-! ## The body obligation -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two cut windows' tiles named on the rows their transfers move, the factor row's whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

/-- On the rows the write-back moves, the product does not see what `x`'s tile was filled out with. -/
theorem cut_product (c : Dev nD) (t : Fin cfg0.N) (d0 : S640x4096.Idx → Elt F .f32) :
    win0_2.cut (grid0.coords t) (k0_pay1 (win0_0.fill (grid0.coords t) d0 (xin m c t)) (iblk m c 1 t))
      = win0_2.cut (grid0.coords t) (k0_pay1 (xtile m c t) (iblk m c 1 t)) := by
  funext j
  refine Tile.tile_congr _ _ _ _ ?_
  unfold xtile
  exact fill_agree (grid0.coords t) _ _ _ _ ((win0_0.moved_iff _ _).mpr fun a => (j a).isLt)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, cut_xtile]
  iintro ⟨HΦ, Ho, ⟨%d0, H0⟩, ⟨%d1, H1⟩, ⟨%d2, H2⟩⟩
  iapply (Tile.step c Set.univ (grid0.coords t) _ _ _ _ _ _ (win0_0.fill (grid0.coords t) d0 (xin m c t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists (k0_pay1 (win0_0.fill (grid0.coords t) d0 (xin m c t)) (iblk m c 1 t))
  rw [win0_2.fill_congr_cut (grid0.coords t) (cut_product m c t d0)]
  iexact H2

theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program terminates, faults nowhere, and ends with `x` and the factors as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Steps

end
-- ==== Proof.Spec.lean ====
/-
  The specification: `x` scaled lane by lane.

  For `x` of 32768 rows by 4096 lanes and a vector `d` of 4096 factors, the result at row r, lane q is
  x(r, q) * d(q) -- one multiplication per entry, in the float instance's own product. Both programs compute exactly this
  product in exactly this order of operands, so they agree at every float instance, and no law of arithmetic (hence no
  finiteness of the inputs) is needed to join them.
-/
import Idealize.ShloMosaic.PureOps

noncomputable section

namespace Cert.LaneScale

open Idealize.ShloMosaic

/-- The array's shape, and the factor vector's. -/
abbrev SX : Shape := ⟨2, ![32768, 4096]⟩
abbrev SD : Shape := ⟨1, ![4096]⟩

/-- The lane of an entry of the array, as an index of the factor vector. -/
def lane (i : SX.Idx) : SD.Idx := fun a => match a with
  | ⟨0, _⟩ => ⟨(i 1).val, (i 1).isLt⟩

theorem lane_val (i : SX.Idx) : ((lane i) 0).val = (i 1).val := rfl

variable {F : FTy → Type} [FloatOps F]

/-- `x` with lane q of every row multiplied by `d q`. -/
def scaled (x : SX.Idx → F .f32) (d : SD.Idx → F .f32) : SX.Idx → F .f32 :=
  fun i => FloatOps.mulf (x i) (d (lane i))

theorem scaled_apply (x : SX.Idx → F .f32) (d : SD.Idx → F .f32) (i : SX.Idx) :
    scaled x d i = FloatOps.mulf (x i) (d (lane i)) := rfl

end Cert.LaneScale

end
-- ==== Proof.IdealValue.lean ====
/-
  What the row-scaling kernel leaves in its result array: `x` scaled lane by lane (`Cert.LaneScale.scaled`), at any
  float instance.

  The run (`Steps.run_main`) ends with the result array at the pipeline library's `arrAt`: the launch contents
  overwritten, step by step, by the leading rows of what each step left in the result's staging tile. Three facts turn that
  into one function of the arguments.

    * What step t writes back (`flushed_eq`). At a moved entry (p, q) of the tile the stored product is
      (x tile)(p, q) * (factor row)(0, q). The x tile there is x at row 640 t + p, lane q -- the same place of the array the
      write-back sends the entry to, because `x`'s window and the result's have one index map and one cut (`x_at`). The
      factor row is the factor vector viewed as 1 x 4096 by the host before the launch, so its entry (0, q) is d(q), and q
      is the lane of the entry's place in the array, the windows spanning all 4096 lanes (`d_at`).
    * Where it writes it (`mem_blk`): rows 640 t up to 640 t + 640, or up to 32768 at the last step t = 51, where only the
      first 128 rows of the tile lie inside the array; all lanes.
    * Every row r is in the block of step r / 640 (`cover`): 640 (r / 640) <= r < 640 (r / 640) + 640, and for
      r / 640 = 51 also r < 32768 = 51 * 640 + 128.

  So by the library's covering lemma the array ends at the specification (`final`), and `run` restates the run with the
  result and both arguments named.
-/
import proofs.«409628_j80960133529733_3_alg».proof.Proof.IdealFrame
import proofs.«409628_j80960133529733_3_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The schedule, decided over the 52 steps -/

/-- At step `t` the result's and `x`'s windows sit at block row `t`, block lane 0; the factor row's at block (0, 0); the
    result's transfer moves all 4096 lanes and 640 rows, but 128 at the last step. -/
theorem sched : ∀ t : Fin cfg0.N,
    win0_2.index t 0 = t.val ∧ win0_2.index t 1 = 0 ∧ win0_0.index t 0 = t.val ∧ win0_0.index t 1 = 0
    ∧ win0_2.xsize (grid0.coords t) 1 = 4096 ∧ win0_2.xsize (grid0.coords t) 0 = (if t.val = 51 then 128 else 640)
    ∧ win0_1.index t 0 = 0 ∧ win0_1.index t 1 = 0 :=
  (by decide +kernel : ∀ t : Fin grid0.N, _)

/-! ## The arrays the region finds -/

/-- The factor row's array is the factor vector viewed as one row: the one host operation before the launch. -/
theorem row_eq (c : Dev nD) : (V m c main_call0_v0 : S1x4096.Idx → F .f32)
    = shapeCast S1x4096 (m ((c : Thread nD τ).loc main_arg1)) shapeCasts_S4096_S1x4096 := by
  dsimp only [V, hostOps0]
  after_results
  rfl

/-- The specification at the program's arguments. -/
def G (c : Dev nD) : Buf (Elt F) ((c.tc : Thread nD τ).loc main_v0) :=
  Cert.LaneScale.scaled (m ((c : Thread nD τ).loc main_arg0)) (m ((c : Thread nD τ).loc main_arg1))

/-! ## What a step writes back -/

/-- `x`'s staging tile at an entry its transfers move is `x` at the entry's place in the array, which is also the place
    the result's write-back sends that entry to. -/
theorem x_at (c : Dev nD) (t : Fin cfg0.N) (j : (win0_0.xblock (grid0.coords t)).Idx) :
    Steps.xtile m c t (win0_0.xinj (grid0.coords t) j)
      = m ((c : Thread nD τ).loc main_arg0) ((win0_2.blk t).view.emb j) := by
  unfold Steps.xtile
  refine (win0_0.fill_xinj (grid0.coords t) _ _ j).trans ?_
  show V m c main_arg0 ((win0_0.blk t).view.emb j) = _
  rw [V_main_arg0]
  rfl

/-- An entry of a block sits in the array, on each axis, at block index times block size plus its own coordinate. -/
theorem emb2_val (t : Fin cfg0.N) (j : (win0_2.xblock (grid0.coords t)).Idx) (a : Fin 2) :
    (((win0_2.blk t).view.emb j) a : Nat) = win0_2.index t a * S640x4096.size a + (j a).val :=
  win0_2.rect_emb_val t j a

theorem emb1_val (t : Fin cfg0.N) (k : S1x4096.Idx) (a : Fin 2) :
    (((win0_1.blk t).view.emb k) a : Nat) = win0_1.index t a * S1x4096.size a + (k a).val :=
  win0_1.rect_emb_val t k a

/-- The entry of the one-row factor tile above a tile entry: row 0, the entry's lane. -/
def rowOf (y : S640x4096.Idx) : S1x4096.Idx := fun a => match a with
  | ⟨0, _⟩ => ⟨0, Nat.one_pos⟩
  | ⟨1, _⟩ => ⟨(y 1).val, (y 1).isLt⟩

/-- The factor row laid over the tile, read at an entry: the row's entry at that lane. -/
theorem spread_apply (v1 : Vec F S1x4096 .f32) (y : S640x4096.Idx) : Tile.spread v1 y = v1 (rowOf y) := by
  unfold Tile.spread
  rw [broadcastTo_apply _ broadcasts_S1x4096_S640x4096 y (rowOf y) (fun a => match a with
    | ⟨0, _⟩ => by show 0 = if (1 : Nat) = 1 then 0 else _; rw [if_pos rfl]
    | ⟨1, _⟩ => by show (y 1).val = if (4096 : Nat) = 1 then 0 else (y 1).val; rw [if_neg (by decide)]),
    shapeCast_self]

/-- The spread factor row at a moved entry is the factor of the lane of the entry's place in the array: the factor tile is
    the whole one-row array (block (0, 0)), that array is the vector with a unit axis in front, and the result's window
    starts at lane 0. -/
theorem d_at (c : Dev nD) (t : Fin cfg0.N) (j : (win0_2.xblock (grid0.coords t)).Idx) :
    Tile.spread (iblk m c 1 t) (win0_2.xinj (grid0.coords t) j)
      = m ((c : Thread nD τ).loc main_arg1) (Cert.LaneScale.lane ((win0_2.blk t).view.emb j)) := by
  obtain ⟨-, e21, -, -, -, -, -, e11⟩ := sched t
  refine (spread_apply _ _).trans ?_
  show V m c main_call0_v0 ((win0_1.blk t).view.emb (rowOf (win0_2.xinj (grid0.coords t) j))) = _
  rw [row_eq, shapeCast_addUnit_apply]
  refine congrArg _ (funext fun a => ?_)
  match a with
  | ⟨0, _⟩ =>
    apply Fin.ext
    show (((win0_1.blk t).view.emb (rowOf (win0_2.xinj (grid0.coords t) j))) 1 : Nat) = (((win0_2.blk t).view.emb j) 1 : Nat)
    rw [emb1_val, emb2_val, e11, e21, Nat.zero_mul, Nat.zero_mul, Nat.zero_add, Nat.zero_add]
    exact (rfl : ((rowOf (win0_2.xinj (grid0.coords t) j)) 1 : Nat) = ((win0_2.xinj (grid0.coords t) j) 1 : Nat)).trans
      (Fin.val_mk _)

/-- What step `t` writes back is its block of the specification. -/
theorem flushed_eq (c : Dev nD) (t : Fin cfg0.N) :
    (Steps.dats m 0 c).flushed 2 t = ((cfg0.win 2).blk t).view.read (Elt F) (G m c) := by
  funext j
  show win0_2.cut (grid0.coords t) ((Steps.dats m 0 c).after 2 t) j = _
  rw [Steps.after_2]
  show k0_pay1 (Steps.xtile m c t) (iblk m c 1 t) (win0_2.xinj (grid0.coords t) j) = _
  rw [Tile.tile_apply]
  exact congrArg₂ FloatOps.mulf (x_at m c t j) (d_at m c t j)

/-! ## The blocks cover the array -/

/-- An entry of the array is in step `t`'s block iff, on each axis, it lies between the block's start and the end of the
    part the transfer moves. -/
theorem mem_blk (t : Fin cfg0.N) (i : S32768x4096.Idx) :
    i ∈ ((cfg0.win 2).blk t).view.set ↔ ∀ a, win0_2.index t a * S640x4096.size a ≤ (i a : Nat)
      ∧ (i a : Nat) < win0_2.index t a * S640x4096.size a + win0_2.xsize (grid0.coords t) a := by
  show i ∈ ((View.whole main_v0).slice (win0_2.rect t)).set ↔ _
  rw [View.set_slice_whole, Rect.mem_set_unit]

/-- Row r is written back at step r / 640 (which writes back, as every step does). -/
theorem cover (i : S32768x4096.Idx) :
    ∃ t : Fin cfg0.N, (cfg0.win 2).flush t = true ∧ i ∈ ((cfg0.win 2).blk t).view.set := by
  have h0 : (i 0 : Nat) < 32768 := (i 0).isLt
  have h1 : (i 1 : Nat) < 4096 := (i 1).isLt
  have hN : cfg0.N = 52 := N_0
  refine ⟨⟨(i 0 : Nat) / 640, by rw [hN]; omega⟩, flush0_2 _, ?_⟩
  rw [mem_blk]
  obtain ⟨e20, e21, -, -, s1, s0, -, -⟩ := sched ⟨(i 0 : Nat) / 640, by rw [hN]; omega⟩
  intro a
  match a with
  | ⟨0, _⟩ =>
    show win0_2.index _ 0 * 640 ≤ (i 0 : Nat) ∧ (i 0 : Nat) < win0_2.index _ 0 * 640 + win0_2.xsize _ 0
    rw [e20, s0]
    show (i 0 : Nat) / 640 * 640 ≤ (i 0 : Nat) ∧ (i 0 : Nat) < (i 0 : Nat) / 640 * 640 + (if (i 0 : Nat) / 640 = 51 then 128 else 640)
    split <;> omega
  | ⟨1, _⟩ =>
    show win0_2.index _ 1 * 4096 ≤ (i 1 : Nat) ∧ (i 1 : Nat) < win0_2.index _ 1 * 4096 + win0_2.xsize _ 1
    rw [e21, s1]
    omega

/-- The result array after the run is `x` scaled lane by lane. -/
theorem final (c : Dev nD) : (Steps.dats m 0 c).arrAt 2 cfg0.N = G m c :=
  (Steps.dats m 0 c).arrAt_eq_of_cover 2 (G m c) (fun t _ => flushed_eq m c t) cover

/-! ## The run, with the result named -/

/-- Every weakly fair execution terminates with the result array at the specification and both arguments as launched. -/
theorem run : θ_run defs (onTc (τ := τ) (main (F := F))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final m c),
      ((h c).1 0).trans (((Steps.dats m 0 c).arrAt_in 0 rfl _).trans ((Steps.A_eq m c 0).trans (V_main_arg0 m c))),
      ((h c).2 main_arg1 (Pipeline.mem_restRefs_of main_arg1 (by decide) (by decide))).trans (V_main_arg1 m c)⟩)
    (Steps.run_main m ρ)

end Cert.KernelIdeal.Whole

end
-- ==== Proof.WordTile.lean ====
/-
  One grid step of the row-scaling kernel, at any float instance.

  The step's body sees three staging buffers: a tile of `x` (640 rows of 4096 lanes), the one row of scale
  factors (1 x 4096), and the result's tile. It loads the first two whole, lays the row of factors over every
  row of the tile, multiplies lane by lane, and stores the product over the whole result tile (it also loads the
  result tile first; that value is never used). So after the step the result tile holds, at row p and lane q,
  (x tile)(p,q) times (factor row)(0,q) -- whatever the two input tiles held, INCLUDING the rows of a last, partial tile
  that lie past the end of the array and hold words nobody names. The two input tiles are left as they were.

  `tile_apply` states the product index by index; `step` is the separation-logic triple of the body.
-/
import proofs.«409628_j80960133529733_3_alg».proof.Proof.Gen.Kernel.Frame
import proofs.«409628_j80960133529733_3_alg».proof.Proof.Gen.Kernel.Skeleton
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row of scale factors laid over every row of a tile: entry (p, q) is the row's entry (0, q). -/
def spread (v1 : Vec F S1x4096 .f32) : FVec F S640x4096 .f32 :=
  broadcastTo S640x4096 (shapeCast S1x4096 v1 shapeCasts_S1x4096_S1x4096) broadcasts_S1x4096_S640x4096

/-- What the step stores, at an index: the tile's entry times the spread row's entry. In particular the stored value at
    an index depends on the `x` tile only through its entry AT THAT index. -/
theorem tile_apply (v0 : Vec F S640x4096 .f32) (v1 : Vec F S1x4096 .f32) (j : S640x4096.Idx) :
    k0_pay1 v0 v1 j = FloatOps.mulf (v0 j) (spread v1 j) := rfl

/-- Two `x` tiles that agree at an index give the same stored value there. -/
theorem tile_congr (v0 v0' : Vec F S640x4096 .f32) (v1 : Vec F S1x4096 .f32) (j : S640x4096.Idx) (h : v0 j = v0' j) :
    k0_pay1 v0 v1 j = k0_pay1 v0' v1 j := by
  rw [tile_apply, tile_apply, h]

set_option maxHeartbeats 1000000 in
/-- The body on three whole staging memrefs, the `x` tile at `x0`, the factor row at `x1`, the result tile at anything:
    it runs to its end and leaves the result tile at the lane-wise product, the other two as they were. -/
theorem step (c : Dev nD) (E : Set ℕ) (i : grid0.Coords)
    (arg1 : Memref sig .tc .vmem S640x4096 .f32) (harg1 : arg1.IsWhole)
    (arg2 : Memref sig .tc .vmem S1x4096 .f32) (harg2 : arg2.IsWhole)
    (arg3 : Memref sig .tc .vmem S640x4096 .f32) (harg3 : arg3.IsWhole)
    (x0 : Vec F S640x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__diag_mul_kernel i arg1 harg1 arg2 harg2 arg3 harg3) K := by
  have hz : (![0, 0] : Fin 2 → Nat) = fun _ => 0 := funext fun a => by fin_cases a <;> rfl
  simp only [cc0__diag_mul_kernel_eq_skeleton]; unfold cc0__diag_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store is through the whole tile at offsets zero, so it covers every index; the two loads likewise read
  -- their buffers whole
  rw [View.read_writes_eq_canon _ _ _ (fun y => ⟨_, List.mem_singleton_self _, View.mem_set_unit_zero hz inb_S640x4096_S640x4096_0_0 y⟩),
    View.canon_unit_zero hz]
  simp only [View.readAt_eq_ld, View.ld_unit_zero (S := S640x4096) hz, View.ld_unit_zero (S := S1x4096) hz]

end Cert.Kernel.Tile

end
-- ==== Proof.WordFrame.lean ====
/-
  The row-scaling program runs to its end and leaves its arguments alone, at any float instance; and what its result
  array holds afterwards is computed by the pipeline library from what each grid step leaves in the result's staging tile.

  The grid has 52 steps over row tiles of 640 rows; 32768 = 51 * 640 + 128, so the LAST tile overhangs the array by 512
  rows. The fetch of `x` at a step lands the tile's rows inside the array (`xin`: all 640, or the first 128 at the last
  step) and leaves the other rows of the staging tile at words nobody names; the write-back of the result writes the same
  leading rows and nothing past the array's end. So the proof data names each staging tile only on those leading rows:

    * `x`'s tile after a step: the rows inside the array, filled out below with a word of the proof's choosing (`xtile`);
    * the factor row's tile: the whole 1 x 4096 row, fetched once and never moved;
    * the result's tile: the lane-wise product of the two (`Tile.tile_apply`), which ON THE LEADING ROWS does not depend
      on what filled `x`'s tile out (`Tile.tile_congr`) -- that is all the pipeline asks of a window whose last block
      is cut at the array's end.

  `run_main` is the run with every array named; `frame` reads it at the two arguments.
-/
import proofs.«409628_j80960133529733_3_alg».proof.Proof.WordTile

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging tiles hold -/

/-- The rows of `x`'s tile at step `t` that lie inside the array, read off the array as the region finds it. -/
def xin (c : Dev nD) (t : Fin cfg0.N) : (win0_0.xblock (grid0.coords t)).Idx → Elt F .f32 := iblk m c 0 t

/-- `x`'s whole staging tile after step `t`: those rows, and the zero word on the rows past the array's end (which
    nothing reads back: the write-back is cut at the same row). -/
def xtile (c : Dev nD) (t : Fin cfg0.N) : S640x4096.Idx → Elt F .f32 :=
  win0_0.fill (grid0.coords t) (fun _ => Scalar.ofBits .f32 0#32) (xin m c t)

theorem cut_xtile (c : Dev nD) (t : Fin cfg0.N) : win0_0.cut (grid0.coords t) (xtile m c t) = xin m c t :=
  win0_0.cut_fill _ _ _

/-- A tile filled out two ways agrees on the rows the transfer moves. -/
theorem fill_agree {α : Type} (i : grid0.Coords) (d d' : win0_0.block.Idx → α) (g : (win0_0.xblock i).Idx → α)
    (j : win0_0.block.Idx) (h : win0_0.moved i j = true) : win0_0.fill i d g j = win0_0.fill i d' g j := by
  unfold Window.fill; rw [dif_pos h, dif_pos h]

/-- The proof data of the one pipeline on core `c`: the arrays as the region finds them; after step `t` the three staging
    tiles as described in the header; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => k0_pay1 (xtile m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xtile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (xtile m c t) (iblk m c 1 t) := by
  dsimp only [dats]

/-! ## What the body finds -/

/-- `x`'s tile is fetched at every step: the rows inside the array, and `d` (anything) below them. -/
theorem before_0 (c : Dev nD) (t : Fin cfg0.N) (d) :
    (dats m 0 c).before 0 t d = win0_0.fill (grid0.coords t) d (xin m c t) := by
  rw [Dat.before_fetched _ 0 t (fetch0_0 t)]
  unfold Dat.fetched Dat.blockOf xin iblk
  rw [A_eq]

/-- The factor row is fetched once and stays: its whole block at every step. -/
theorem before_1 (c : Dev nD) (t : Fin cfg0.N) (d) : (dats m 0 c).before 1 t d = iblk m c 1 t :=
  before0_1_of m (dats m 0 c) (A_eq m c 1) (after_1 m c) t d

/-- The result's tile is written back at every step, so the body finds it at anything. -/
theorem before_2 (c : Dev nD) (t : Fin cfg0.N) (d) : (dats m 0 c).before 2 t d = d :=
  Dat.before_out_reset _ 2 rfl t (by
    by_cases h0 : t.val = 0
    · exact .inl h0
    · exact .inr ⟨h0, flush0_2 _⟩) d

/-! ## The body obligation -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two cut windows' tiles named on the rows their transfers move, the factor row's whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

/-- On the rows the write-back moves, the product does not see what `x`'s tile was filled out with. -/
theorem cut_product (c : Dev nD) (t : Fin cfg0.N) (d0 : S640x4096.Idx → Elt F .f32) :
    win0_2.cut (grid0.coords t) (k0_pay1 (win0_0.fill (grid0.coords t) d0 (xin m c t)) (iblk m c 1 t))
      = win0_2.cut (grid0.coords t) (k0_pay1 (xtile m c t) (iblk m c 1 t)) := by
  funext j
  refine Tile.tile_congr _ _ _ _ ?_
  unfold xtile
  exact fill_agree (grid0.coords t) _ _ _ _ ((win0_0.moved_iff _ _).mpr fun a => (j a).isLt)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, cut_xtile]
  iintro ⟨HΦ, Ho, ⟨%d0, H0⟩, ⟨%d1, H1⟩, ⟨%d2, H2⟩⟩
  iapply (Tile.step c Set.univ (grid0.coords t) _ _ _ _ _ _ (win0_0.fill (grid0.coords t) d0 (xin m c t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists (k0_pay1 (win0_0.fill (grid0.coords t) d0 (xin m c t)) (iblk m c 1 t))
  rw [win0_2.fill_congr_cut (grid0.coords t) (cut_product m c t d0)]
  iexact H2

theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program terminates, faults nowhere, and ends with `x` and the factors as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Steps

end
-- ==== Proof.RefSide.lean ====
/-
  The reference computes the specification.

  Its three host operations are: the factor vector viewed as one row (1 x 4096), that row repeated down all 32768
  rows, and the lane-wise product with `x`. Read at an entry (r, q) through the stages, the two layout steps reach
  the factor vector at q, so the product there is x(r, q) * d(q): `Cert.LaneScale.scaled`.
-/
import proofs.«409628_j80960133529733_3_alg».proof.Proof.Gen.ReferenceIdeal.Read
import proofs.«409628_j80960133529733_3_alg».proof.Proof.Spec

noncomputable section

namespace Cert.ReferenceIdeal.Lanes

open Cert.ReferenceIdeal Cert.ReferenceIdeal.Gen Cert.ReferenceIdeal.Read Idealize.ShloMosaic

variable {F : FTy → Type} [FloatOps F]

/-- Through the two layout stages an entry of the array reaches the factor of its own lane. -/
theorem reach (i : S32768x4096.Idx) : idx_main_v0 (idx_main_v1 i) = Cert.LaneScale.lane i :=
  funext fun a => match a with
    | ⟨0, _⟩ => rfl

/-- The reference's result stage is `x` scaled lane by lane. -/
theorem stage_eq (x0 : (⟨S32768x4096, .f32⟩ : BufTy).Contents (Elt F)) (x1 : (⟨S4096, .f32⟩ : BufTy).Contents (Elt F)) :
    val_main_v2 (F := F) x0 x1 = Cert.LaneScale.scaled x0 x1 := by
  funext i
  rw [val_main_v2_apply, val_main_v1_apply, val_main_v0_apply, reach, Cert.LaneScale.scaled_apply]

end Cert.ReferenceIdeal.Lanes

end
-- ==== Proof.lean ====
/-
  The certificate of the row-scaling kernel against its reference: out(r, q) = x(r, q) * d(q) over 32768 rows of 4096 lanes.

  The kernel walks the rows in 52 tiles of 640, the last one cut at the array's end after 128 rows; each step multiplies
  the tile of `x` by the row of factors laid over it. The reference repeats the factor vector down all rows and multiplies.
  Entry by entry both are the single product x(r, q) * d(q) with the operands in the same order, so the two results are
  equal at the ideal instance with no appeal to any law of arithmetic, and the finiteness of the inputs is never used.

    * The three frames: the kernel (as printed, and idealized) runs to its end whatever the staging rows past the array's
      end hold (`Steps.frame`, one text at both instances); the reference's frame is its run with the result dropped.
    * The idealization rewrote nothing, so there is nothing to preserve.
    * The equivalence: the kernel's run ends at the specification (`Whole.run`) and so does the reference's
      (its stages read down to the specification, `Lanes.stage_eq`), from memories that agree on the arguments.
-/
import proofs.«409628_j80960133529733_3_alg».proof.Defs
import proofs.«409628_j80960133529733_3_alg».proof.Proof.Gen.Pre_finite_inputs
import proofs.«409628_j80960133529733_3_alg».proof.Proof.IdealValue
import proofs.«409628_j80960133529733_3_alg».proof.Proof.WordFrame
import proofs.«409628_j80960133529733_3_alg».proof.Proof.RefSide
import Idealize.ShloMosaic.Adequacy
import Idealize.ShloMosaic.Init

noncomputable section

namespace Cert.Proof

open Idealize.ShloMosaic Idealize.ShloMosaic.TcCoe Idealize.SL.Sem

theorem frame_word : Cert.frame_Kernel := fun m ρ _ => Cert.Kernel.Steps.frame m ρ

theorem frame_ideal : Cert.frame_KernelIdeal := fun m ρ _ => Cert.KernelIdeal.Steps.frame m ρ

theorem frame_ref : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `x` scaled lane by lane, of arguments that agree. -/
theorem algebraic : Cert.algebraic_KernelIdeal_ReferenceIdeal := by
  intro m ρ m' ρ' _ hagree
  refine ⟨fun c => Cert.KernelIdeal.Whole.G m c, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Lanes.stage_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
